-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x13x512x512 : Shape := ⟨4, ![16, 13, 512, 512]⟩
abbrev S_ : Shape := ⟨0, ![]⟩

class Facts : Prop where
  bcast_S_S16x13x512x512 : S_.BroadcastsInDim S16x13x512x512 (![] : Fin 0 → Fin S16x13x512x512.rank)
  reducesTo_S16x13x512x512_S_d0_1_2_3 : S16x13x512x512.ReducesTo [0, 1, 2, 3] S_
  h_S_ : 0 < S_.numel

variable [Facts]

def fn {F : FTy → Type} [FloatOps F] (main_arg0 : FVec F S16x13x512x512 .f32) (main_arg1 : FVec F S16x13x512x512 .f32) : IVec S_ 1 :=
  let main_v0 : FVec F S16x13x512x512 .f32 := Host.absf main_arg0
  let main_cst : FVec F S_ .f32 := constant S_ .f32 0x7F800000#32
  let main_v1 : FVec F S16x13x512x512 .f32 := broadcastInDim S16x13x512x512 ![] bcast_S_S16x13x512x512 main_cst
  let main_v2 : IVec S16x13x512x512 1 := cmpf .olt main_v0 main_v1
  let main_c : IVec S_ 1 := constantI S_ 1 1#1
  let main_v3 : IVec S_ 1 := (fun x v => Host.reduce IntOp.andi x v reducesTo_S16x13x512x512_S_d0_1_2_3 h_S_) main_v2 main_c
  let main_v4 : FVec F S16x13x512x512 .f32 := Host.absf main_arg1
  let main_cst_0 : FVec F S_ .f32 := constant S_ .f32 0x7F800000#32
  let main_v5 : FVec F S16x13x512x512 .f32 := broadcastInDim S16x13x512x512 ![] bcast_S_S16x13x512x512 main_cst_0
  let main_v6 : IVec S16x13x512x512 1 := cmpf .olt main_v4 main_v5
  let main_c_1 : IVec S_ 1 := constantI S_ 1 1#1
  let main_v7 : IVec S_ 1 := (fun x v => Host.reduce IntOp.andi x v reducesTo_S16x13x512x512_S_d0_1_2_3 h_S_) main_v6 main_c_1
  let main_v8 : IVec S_ 1 := andi main_v3 main_v7
  main_v8
-- ==== Kernel.lean ====
abbrev S16x13x512x512 : Shape := ⟨4, ![16, 13, 512, 512]⟩
abbrev S16x13 : Shape := ⟨2, ![16, 13]⟩
abbrev S8x13x16x512 : Shape := ⟨4, ![8, 13, 16, 512]⟩
abbrev S8x13 : Shape := ⟨2, ![8, 13]⟩
abbrev S8x13x16 : Shape := ⟨3, ![8, 13, 16]⟩
abbrev S_ : Shape := ⟨0, ![]⟩

abbrev nBuf : Space → Nat
  | .hbm => 37
  | .vmem => 8
  | .smem => 0
  | _ => 0

abbrev bufTy : (tb : Table) → Fin (tcTables nBuf tb) → BufTy
  | .hbm, ⟨0, _⟩ => ⟨S16x13x512x512, .f32⟩
  | .hbm, ⟨1, _⟩ => ⟨S16x13x512x512, .f32⟩
  | .hbm, ⟨2, _⟩ => ⟨S16x13, .f32⟩
  | .hbm, ⟨3, _⟩ => ⟨S16x13, .f32⟩
  | .hbm, ⟨4, _⟩ => ⟨S_, .f32⟩
  | .hbm, ⟨5, _⟩ => ⟨S16x13, .f32⟩
  | .hbm, ⟨6, _⟩ => ⟨S16x13, .f32⟩
  | .hbm, ⟨7, _⟩ => ⟨S16x13, .f32⟩
  | .hbm, ⟨8, _⟩ => ⟨S_, .f32⟩
  | .hbm, ⟨9, _⟩ => ⟨S16x13, .f32⟩
  | .hbm, ⟨10, _⟩ => ⟨S16x13, .i1⟩
  | .hbm, ⟨11, _⟩ => ⟨S_, .f32⟩
  | .hbm, ⟨12, _⟩ => ⟨S16x13, .f32⟩
  | .hbm, ⟨13, _⟩ => ⟨S16x13, .f32⟩
  | .hbm, ⟨14, _⟩ => ⟨S16x13, .f32⟩
  | .hbm, ⟨15, _⟩ => ⟨S_, .f32⟩
  | .hbm, ⟨16, _⟩ => ⟨S_, .f32⟩
  | .hbm, ⟨17, _⟩ => ⟨S16x13, .f32⟩
  | .hbm, ⟨18, _⟩ => ⟨S16x13, .f32⟩
  | .hbm, ⟨19, _⟩ => ⟨S16x13, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8x13x16x512, .f32⟩
  | .local _ .vmem, ⟨1, _⟩ => ⟨S8x13x16x512, .f32⟩
  | .local _ .vmem, ⟨2, _⟩ => ⟨S8x13x16x512, .f32⟩
  | .local _ .vmem, ⟨3, _⟩ => ⟨S8x13x16x512, .f32⟩
  | .local _ .vmem, ⟨4, _⟩ => ⟨S8x13, .f32⟩
  | .local _ .vmem, ⟨5, _⟩ => ⟨S8x13, .f32⟩
  | .local _ .vmem, ⟨6, _⟩ => ⟨S8x13, .f32⟩
  | .local _ .vmem, ⟨7, _⟩ => ⟨S8x13, .f32⟩
  | _, _ => ⟨S16x13x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_cst_7 : Ref sig .tc := ⟨.hbm, 29, rfl⟩
abbrev main_call1_v0 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_cst_9 : Ref sig .tc := ⟨.hbm, 34, rfl⟩
abbrev main_call2_v0 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x13x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x13x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x13_S8x13_0_0 : ∀ a, (![0, 0] : Fin 2 → Nat) a + S8x13.size a ≤ S8x13.size a
  h_S8x13 : 0 < S8x13.numel
  inb_S8x13x16x512_S8x13x16x512_0_0_0_0 : ∀ a, (![0, 0, 0, 0] : Fin 4 → Nat) a + S8x13x16x512.size a ≤ S8x13x16x512.size a
  h_S8x13x16x512 : 0 < S8x13x16x512.numel
  natLt_1_32 : 1 < 32
  reduces_S8x13x16x512_S8x13x16 : S8x13x16x512.Reduces [3] S8x13x16
  reduces_S8x13x16_S8x13 : S8x13x16.Reduces [2] S8x13
  shapeCasts_S8x13_S8x13 : S8x13.ShapeCasts S8x13
  bcast_S_S16x13 : S_.BroadcastsInDim S16x13 (![] : Fin 0 → Fin S16x13.rank)
  reducesTo_S16x13_S_d0_1 : S16x13.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x13x16x512.size a ≤ S16x13x512x512.size a
  hwx0_0 : ∀ i : grid0.Coords, EltTy.bits .f32 = 32 ∨ (Rect.block (s := S16x13x512x512) S8x13x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x13x16x512.size a ≤ S16x13x512x512.size a
  hwx0_1 : ∀ i : grid0.Coords, EltTy.bits .f32 = 32 ∨ (Rect.block (s := S16x13x512x512) S8x13x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x13.size a ≤ S16x13.size a
  hwx0_2 : ∀ i : grid0.Coords, EltTy.bits .f32 = 32 ∨ (Rect.block (s := S16x13) S8x13.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x13.size a ≤ S16x13.size a
  hwx0_3 : ∀ i : grid0.Coords, EltTy.bits .f32 = 32 ∨ (Rect.block (s := S16x13) S8x13.size (cc0_transform_3 i) (hinb0_3 i)).WholeWords (EltTy.packing .f32)

variable [Facts₀]

abbrev win0_0 : Pipeline.Window sig grid0 :=
  Pipeline.Window.ofSpec (Memref.whole main_arg0) S8x13x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x13x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x13.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x13.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x13x512x512 : Shape := ⟨4, ![16, 13, 512, 512]⟩
abbrev S_ : Shape := ⟨0, ![]⟩
abbrev S16x13 : Shape := ⟨2, ![16, 13]⟩

abbrev nBuf : Space → Nat
  | .hbm => 50
  | .vmem => 0
  | .smem => 0
  | _ => 0

abbrev bufTy : (tb : Table) → Fin (tcTables nBuf tb) → BufTy
  | .hbm, ⟨0, _⟩ => ⟨S16x13x512x512, .f32⟩
  | .hbm, ⟨1, _⟩ => ⟨S16x13x512x512, .f32⟩
  | .hbm, ⟨2, _⟩ => ⟨S_, .f32⟩
  | .hbm, ⟨3, _⟩ => ⟨S16x13x512x512, .f32⟩
  | .hbm, ⟨4, _⟩ => ⟨S16x13x512x512, .i1⟩
  | .hbm, ⟨5, _⟩ => ⟨S16x13x512x512, .i32⟩
  | .hbm, ⟨6, _⟩ => ⟨S_, .i32⟩
  | .hbm, ⟨7, _⟩ => ⟨S16x13, .i32⟩
  | .hbm, ⟨8, _⟩ => ⟨S16x13, .f32⟩
  | .hbm, ⟨9, _⟩ => ⟨S16x13x512x512, .f32⟩
  | .hbm, ⟨10, _⟩ => ⟨S16x13x512x512, .f32⟩
  | .hbm, ⟨11, _⟩ => ⟨S_, .f32⟩
  | .hbm, ⟨12, _⟩ => ⟨S_, .f32⟩
  | .hbm, ⟨13, _⟩ => ⟨S16x13x512x512, .f32⟩
  | .hbm, ⟨14, _⟩ => ⟨S16x13x512x512, .f32⟩
  | .hbm, ⟨15, _⟩ => ⟨S_, .f32⟩
  | .hbm, ⟨16, _⟩ => ⟨S16x13, .f32⟩
  | .hbm, ⟨17, _⟩ => ⟨S_, .f32⟩
  | .hbm, ⟨18, _⟩ => ⟨S16x13, .f32⟩
  | .hbm, ⟨19, _⟩ => ⟨S16x13, .f32⟩
  | .hbm, ⟨20, _⟩ => ⟨S16x13, .f32⟩
  | .hbm, ⟨21, _⟩ => ⟨S_, .f32⟩
  | .hbm, ⟨22, _⟩ => ⟨S16x13, .f32⟩
  | .hbm, ⟨23, _⟩ => ⟨S16x13, .i1⟩
  | .hbm, ⟨24, _⟩ => ⟨S_, .f32⟩
  | .hbm, ⟨25, _⟩ => ⟨S16x13, .f32⟩
  | .hbm, ⟨26, _⟩ => ⟨S16x13, .f32⟩
  | .hbm, ⟨27, _⟩ => ⟨S16x13, .f32⟩
  | .hbm, ⟨28, _⟩ => ⟨S_, .f32⟩
  | .hbm, ⟨29, _⟩ => ⟨S_, .f32⟩
  | .hbm, ⟨30, _⟩ => ⟨S16x13, .f32⟩
  | .hbm, ⟨31, _⟩ => ⟨S16x13, .f32⟩
  | .hbm, ⟨32, _⟩ => ⟨S16x13, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | _, _ => ⟨S16x13x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_call2_v0 : Ref sig .tc := ⟨.hbm, 43, rfl⟩
abbrev main_v24 : Ref sig .tc := ⟨.hbm, 44, rfl⟩
abbrev main_cst_11 : Ref sig .tc := ⟨.hbm, 45, rfl⟩
abbrev main_v25 : Ref sig .tc := ⟨.hbm, 46, rfl⟩
abbrev main_cst_12 : Ref sig .tc := ⟨.hbm, 47, rfl⟩
abbrev main_call3_v0 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  bcast_S_S16x13x512x512 : S_.BroadcastsInDim S16x13x512x512 (![] : Fin 0 → Fin S16x13x512x512.rank)
  natLt_1_32 : 1 < 32
  reducesTo_S16x13x512x512_S16x13_d2_3 : S16x13x512x512.ReducesTo [2, 3] S16x13
  h_S_ : 0 < S_.numel
  bcast_S_S16x13 : S_.BroadcastsInDim S16x13 (![] : Fin 0 → Fin S16x13.rank)
  reducesTo_S16x13_S_d0_1 : S16x13.ReducesTo [0, 1] S_

variable [Facts₀]

class Facts : Prop extends Facts₀ where

variable [Facts]
-- ==== Proof.Spec.lean ====
/-
  The mathematics both programs share, stated without either program.

  Two f32[16, 13, 512, 512] inputs, outputs `o` and targets `t`. A pixel is VALID when its target is above zero. Per
  (batch, channel) plane both programs form the number of valid pixels, C, and the sum over the valid pixels of (o − t)², E,
  and then one and the same scalar function of the two [16, 13] arrays (`tail`): the planes' errors E / max (C, 1), each
  weighted by sqrt (C / 262144), summed and divided by the weights' sum.

  What differs is how C and E are summed. One program sums a plane's 512 × 512 terms in one reduction over both image
  axes, and counts in 32-bit integers before converting; the other walks the image in 32 blocks of 16 rows, summing
  each block over its columns, then its rows, and adding block after block, counting in floats throughout. Over the
  extended reals addition is commutative and associative, so the order and grouping do not matter (`sum_blocks`, `sum_filter_rows`);
  and a plane has 2¹⁸ pixels, so the integer count neither wraps nor turns negative and converts to the same number (`count_rows`).
-/
import Idealize.ShloMosaic.PureOps.Ideal
import Idealize.ShloMosaic.PureOps.Ideal.Laws
import Idealize.ShloMosaic.PureOps.Reduce
import Idealize.ShloMosaic.Lib.ValueIdx
import Idealize.ShloMosaic.Lib.StableHlo.Predicate

noncomputable section

open scoped BigOperators
open Idealize.ShloMosaic Idealize.ShloMosaic.ValueIdx

namespace Cert.MaskedMse

/-- The two inputs' shape, the per-(batch, channel) result's, and the scalar's. -/
abbrev Arr : Shape := ⟨4, ![16, 13, 512, 512]⟩
abbrev Out : Shape := ⟨2, ![16, 13]⟩
abbrev Sc : Shape := ⟨0, ![]⟩

/-- Entry (b, c, H, W) of an input. -/
abbrev at4 (b : Fin 16) (c : Fin 13) (H : Fin 512) (W : Fin 512) : Arr.Idx := ix4 b c H W

/-- The validity bit of a target value: `t > 0`. -/
def pos (t : Ideal .f32) : BitVec 1 :=
  FloatOps.cmpf (F := Ideal) .ogt t (FloatOps.ofBits (F := Ideal) .f32 0x00000000#32)

/-- A valid pixel counts one, an invalid one zero. -/
def cnt (t : Ideal .f32) : Ideal .f32 := if pos t = 1#1 then 1 else 0

/-- A valid pixel's squared error, zero at an invalid one. -/
def msq (o t : Ideal .f32) : Ideal .f32 :=
  Scalar.select (pos t) (FloatOps.mulf (FloatOps.subf o t) (FloatOps.subf o t)) (FloatOps.ofBits (F := Ideal) .f32 0x00000000#32)

/-- The sum of a pointwise term over the two image axes, per (batch, channel). -/
def rowSums (f : Arr.Idx → EReal) : Out.Idx → EReal :=
  fun j => ∑ H : Fin 512, ∑ W : Fin 512, f (at4 (j 0) (j 1) H W)

/-- A one-bit word widened and converted signed is 1 or 0. -/
theorem sitofp_bit (b : BitVec 1) :
    FloatOps.sitofp (F := Ideal) .f32 (b.setWidth 32) = if b = 1#1 then (1 : EReal) else 0 := by
  rcases BitVec.eq_zero_or_eq_one b with rfl | rfl
  · show ((((0#1 : BitVec 1).setWidth 32).toInt : ℝ) : EReal) = _
    simp
  · show ((((1#1 : BitVec 1).setWidth 32).toInt : ℝ) : EReal) = _
    simp

/-! ## The indices that reduce to (b, c) are the (b, c, H, W) -/

theorem drop_iff (h : Arr.ReducesTo [2, 3] Out) (i : Arr.Idx) (j : Out.Idx) :
    h.drop i = j ↔ (i 0).val = (j 0).val ∧ (i 1).val = (j 1).val := by
  have h0 : (h.drop i 0 : Nat) = i 0 := Shape.ReducesTo.drop_apply_val_of_eq h i 0 0
  have h1 : (h.drop i 1 : Nat) = i 1 := Shape.ReducesTo.drop_apply_val_of_eq h i 1 1
  constructor
  · intro e; rw [e] at h0 h1; exact ⟨h0.symm, h1.symm⟩
  · rintro ⟨e0, e1⟩
    funext b
    match b with
    | ⟨0, _⟩ => exact Fin.ext (h0.trans e0)
    | ⟨1, _⟩ => exact Fin.ext (h1.trans e1)

/-- A sum over the indices that reduce to `j` is the double sum over the two image coordinates. -/
theorem sum_filter_rows {M : Type*} [AddCommMonoid M] (h : Arr.ReducesTo [2, 3] Out) (f : Arr.Idx → M) (j : Out.Idx) :
    ∑ i ∈ Finset.univ.filter (fun i => h.drop i = j), f i = ∑ H : Fin 512, ∑ W : Fin 512, f (at4 (j 0) (j 1) H W) := by
  classical
  rw [← Finset.sum_product' (Finset.univ : Finset (Fin 512)) (Finset.univ : Finset (Fin 512)) (fun H W => f (at4 (j 0) (j 1) H W))]
  refine Finset.sum_bij' (fun i _ => ((i 2 : Fin 512), (i 3 : Fin 512))) (fun p _ => at4 (j 0) (j 1) p.1 p.2)
    (fun _ _ => Finset.mem_product.2 ⟨Finset.mem_univ _, Finset.mem_univ _⟩)
    (fun p _ => Finset.mem_filter.2 ⟨Finset.mem_univ _, (drop_iff h _ j).2 ⟨rfl, rfl⟩⟩) ?_ (fun _ _ => rfl) ?_
  · intro i hi
    obtain ⟨e0, e1⟩ := (drop_iff h i j).1 (Finset.mem_filter.1 hi).2
    funext a
    match a with
    | ⟨0, _⟩ => exact Fin.ext e0.symm
    | ⟨1, _⟩ => exact Fin.ext e1.symm
    | ⟨2, _⟩ => rfl
    | ⟨3, _⟩ => rfl
  · intro i hi
    obtain ⟨e0, e1⟩ := (drop_iff h i j).1 (Finset.mem_filter.1 hi).2
    congr 1
    funext a
    match a with
    | ⟨0, _⟩ => exact Fin.ext e0
    | ⟨1, _⟩ => exact Fin.ext e1
    | ⟨2, _⟩ => rfl
    | ⟨3, _⟩ => rfl

/-- The host's float sum over the two image axes is, at (b, c), the initial value plus the double sum. -/
theorem hostReduceAdd_rows (h : Arr.ReducesTo [2, 3] Out) (x : Arr.Idx → EReal) (init : EReal) (j : Out.Idx) :
    Ideal.hostReduceAdd h x init j = init + rowSums x j := by
  unfold Ideal.hostReduceAdd rowSums
  rw [sum_filter_rows h x j]

/-- Casting a count of ones from the naturals, through the integers and the reals, to the extended reals. -/
theorem cast_count {ι : Type} [DecidableEq ι] (p : ι → Prop) [DecidablePred p] (T : Finset ι) :
    ((((∑ i ∈ T, (if p i then 1 else 0 : ℕ) : ℕ) : ℤ) : ℝ) : EReal) = ∑ i ∈ T, (if p i then (1 : EReal) else 0) := by
  induction T using Finset.induction_on with
  | empty => simp
  | insert a T ha ih =>
    rw [Finset.sum_insert ha, Finset.sum_insert ha, ← ih]
    push_cast
    split <;> simp

/-- THE COUNT. The host widens the validity bits to 32-bit words, adds them as words and converts the word signed. A
    (batch, channel) plane has 512 · 512 = 2¹⁸ pixels, so the word sum does not wrap and is below 2³¹: the converted word is
    the number of set bits, the same sum of ones and zeros the kernel forms in floats. -/
theorem count_rows (mask : IVec Arr 1) (hw : 1 < 32) (h : Arr.ReducesTo [2, 3] Out) {u : Shape} (hu : 0 < u.numel) (j : Out.Idx) :
    FloatOps.sitofp (F := Ideal) .f32 (Host.reduce IntOp.addi (extui 32 mask hw) (constantI u 32 0#32) h hu j)
      = rowSums (fun i => if mask i = 1#1 then (1 : EReal) else 0) j := by
  classical
  have hval : ∀ i, (extui 32 mask hw i).toNat = if mask i = 1#1 then 1 else 0 :=
    fun i => StableHlo.Predicate.toNat_setWidth_bit (mask i)
  have hle : ∑ i ∈ Finset.univ.filter (fun i : Arr.Idx => h.drop i = j), (extui 32 mask hw i).toNat ≤ 512 * 512 := by
    rw [sum_filter_rows h _ j]
    calc ∑ H : Fin 512, ∑ W : Fin 512, (extui 32 mask hw (at4 (j 0) (j 1) H W)).toNat
        ≤ ∑ _H : Fin 512, ∑ _W : Fin 512, 1 :=
          Finset.sum_le_sum fun H _ => Finset.sum_le_sum fun W _ => by rw [hval]; split <;> omega
      _ = 512 * 512 := by simp
  have hfold : (Host.reduce IntOp.addi (extui 32 mask hw) (constantI u 32 0#32) h hu j).toNat
      = ∑ i ∈ Finset.univ.filter (fun i : Arr.Idx => h.drop i = j), (extui 32 mask hw i).toNat := by
    rw [Host.reduce_eq_fold]
    show (Finset.fold IntOp.addi 0#32 (extui 32 mask hw) (Finset.univ.filter fun i : Arr.Idx => h.drop i = j)).toNat = _
    exact StableHlo.Predicate.toNat_fold_addi _ _ (by omega)
  show ((((Host.reduce IntOp.addi (extui 32 mask hw) (constantI u 32 0#32) h hu j).toInt : ℤ) : ℝ) : EReal) = _
  rw [StableHlo.Predicate.toInt_eq_toNat_of_lt (by rw [hfold]; omega), hfold]
  unfold rowSums
  refine Eq.trans ?_ (sum_filter_rows h (fun i => if mask i = 1#1 then (1 : EReal) else 0) j)
  simp only [hval]
  exact cast_count _ _

/-! ## The image's 512 rows are 32 blocks of 16 -/

/-- Row `16 · j + h` of the image: row `h` of block `j` (a block number below 32). -/
def rowOf (j : ℕ) (h : Fin 16) : Fin 512 := ⟨(16 * j + h.val) % 512, Nat.mod_lt _ (by decide)⟩

/-- Summing block by block, and inside a block row by row, visits every row of the image once. -/
theorem sum_blocks {M : Type*} [AddCommMonoid M] (g : Fin 512 → M) :
    ∑ j ∈ Finset.range 32, ∑ h : Fin 16, g (rowOf j h) = ∑ H : Fin 512, g H := by
  rw [Finset.sum_range (fun j => ∑ h : Fin 16, g (rowOf j h))]
  rw [← Fintype.sum_prod_type' (f := fun (j : Fin 32) (h : Fin 16) => g (rowOf j.val h))]
  refine Fintype.sum_equiv (finProdFinEquiv : Fin 32 × Fin 16 ≃ Fin 512) _ _ (fun p => ?_)
  obtain ⟨a, b⟩ := p
  congr 1
  apply Fin.ext
  show (16 * a.val + b.val) % 512 = b.val + 16 * a.val
  have := a.isLt; have := b.isLt; omega

/-! ## The running sum along a row of 32 blocks

Point `n` of the 2 × 32 grid (`n` below 64) works on batch rows `8 · (n / 32) + b` and image rows `16 · (n % 32) + h`. -/

/-- Batch row `8 · i + b`: row `b` of batch half `i` (a half number below 2). -/
def batchOf (i : ℕ) (b : Fin 8) : Fin 16 := ⟨(8 * i + b.val) % 16, Nat.mod_lt _ (by decide)⟩

/-- What point `n`'s block contributes at (b, c): a pointwise term summed over the block's 16 rows and 512 columns. -/
def blkSum (f : Arr.Idx → EReal) (n : ℕ) (b : Fin 8) (c : Fin 13) : EReal :=
  ∑ h : Fin 16, ∑ w : Fin 512, f (at4 (batchOf (n / 32) b) c (rowOf (n % 32) h) w)

/-- The blocks of point `n`'s row of blocks up to and including `n`'s own, summed. -/
def accOf (f : Arr.Idx → EReal) (n : ℕ) (b : Fin 8) (c : Fin 13) : EReal :=
  ∑ j ∈ Finset.range (n % 32 + 1), ∑ h : Fin 16, ∑ w : Fin 512, f (at4 (batchOf (n / 32) b) c (rowOf j h) w)

/-- At the first block of a row the running sum is zero plus that block. -/
theorem accOf_first (f : Arr.Idx → EReal) (n : ℕ) (h0 : n % 32 = 0) (b : Fin 8) (c : Fin 13) :
    accOf f n b c = 0 + blkSum f n b c := by
  unfold accOf blkSum
  rw [h0, Finset.sum_range_one, zero_add]

/-- At a later block it is the running sum so far plus that block. -/
theorem accOf_next (f : Arr.Idx → EReal) (n : ℕ) (h0 : ¬(n + 1) % 32 = 0) (b : Fin 8) (c : Fin 13) :
    accOf f (n + 1) b c = accOf f n b c + blkSum f (n + 1) b c := by
  have e1 : (n + 1) / 32 = n / 32 := by omega
  have e2 : (n + 1) % 32 = n % 32 + 1 := by omega
  unfold accOf blkSum
  rw [e1, e2, Finset.sum_range_succ]

/-- After the last block of batch half `i`'s row it is the whole plane's sum. -/
theorem accOf_last (f : Arr.Idx → EReal) (i : ℕ) (b : Fin 8) (c : Fin 13) :
    accOf f (32 * i + 31) b c = rowSums f (ix2 (batchOf i b) c) := by
  have e1 : (32 * i + 31) / 32 = i := by omega
  have e2 : (32 * i + 31) % 32 + 1 = 32 := by omega
  unfold accOf rowSums
  rw [e1, e2]
  exact sum_blocks (fun H => ∑ w : Fin 512, f (at4 (batchOf i b) c H w))

/-! ## What both programs do with the counts and the sums -/

section Tail
variable {F : FTy → Type} [FloatOps F]
variable (hb : Sc.BroadcastsInDim Out (![] : Fin 0 → Fin Out.rank)) (hr : Out.ReducesTo [0, 1] Sc) (hs : 0 < Sc.numel)

/-- The weight of a (batch, channel) plane: the square root of its valid fraction, `sqrt (C / 262144)`. -/
def weight (C : FVec F Out .f32) : FVec F Out .f32 :=
  Host.sqrt (Host.divf C (broadcastInDim Out ![] hb (constant Sc .f32 0x48800000#32)))

/-- The sum of the weights. -/
def totalWeight (C : FVec F Out .f32) : FVec F Sc .f32 :=
  Host.reduceAdd (weight hb C) (constant Sc .f32 0x00000000#32) hr hs

/-- A plane's masked mean squared error: `E / max (C, 1)` where it has a valid pixel, else zero. -/
def mse (C E : FVec F Out .f32) : FVec F Out .f32 :=
  select (cmpf .ogt C (broadcastInDim Out ![] hb (constant Sc .f32 0x00000000#32)))
    (Host.divf E (maximumf C (broadcastInDim Out ![] hb (constant Sc .f32 0x3F800000#32))))
    (broadcastInDim Out ![] hb (constant Sc .f32 0x00000000#32))

/-- The loss: the weighted errors' sum over the weights' sum (guarded below by 1e-30), zero where the weights sum to nothing;
    the outer guard is the same test once more. -/
def tail (C E : FVec F Out .f32) : FVec F Sc .f32 :=
  select (cmpf .ogt (totalWeight hb hr hs C) (constant Sc .f32 0x00000000#32))
    (select (cmpf .ogt (totalWeight hb hr hs C) (constant Sc .f32 0x00000000#32))
      (Host.divf (Host.reduceAdd (mulf (mse hb C E) (weight hb C)) (constant Sc .f32 0x00000000#32) hr hs)
        (maximumf (totalWeight hb hr hs C) (constant Sc .f32 0x0DA24260#32)))
      (constant Sc .f32 0x00000000#32))
    (constant Sc .f32 0x00000000#32)

end Tail

end Cert.MaskedMse

end
-- ==== Proof.Pieces.lean ====
/-
  What one run of the kernel body leaves in its two [8, 13] output buffers, as values. The body runs once per
  (batch half, block of 16 image rows); its outputs' buffers are carried from block to block along a row of 32 blocks.
  In each case the buffer ends at the body's one closing store, whose value is the buffer's earlier contents plus the
  block's partial sums; at the first block of a row those earlier contents are the zeros the body has just stored.
-/
import proofs.«141401_j79731772883678_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- At a block that is not the first of its row of blocks, the counts' buffer holding `xo2` is left at the body's
    `xo2 + (this block's valid counts)`: one store covering the whole [8, 13] buffer, its value read off the targets'
    block `x1` and the buffer itself. -/
theorem out_B_2 (c : Dev nD) (i : grid0.Coords) (a2 : Memref sig .tc .vmem S8x13x16x512 .f32) (h2 : a2.IsWhole)
    (a3 : Memref sig .tc .vmem S8x13x16x512 .f32) (h3 : a3.IsWhole) (a4 : Memref sig .tc .vmem S8x13 .f32) (h4 : a4.IsWhole)
    (a5 : Memref sig .tc .vmem S8x13 .f32) (h5 : a5.IsWhole) (hc : ¬cond0_0 i)
    (x0 x1 : Vec F S8x13x16x512 .f32) (xo2 xo3 : Vec F S8x13 .f32) :
    out0_B_2 c i a2 h2 a3 h3 a4 h4 a5 h5 hc x0 x1 xo2 xo3 = k0_pay4 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz]
  simp only [View.readAt_eq_ld, h3.read_unread, h4.read_unread, View.ld_unit_zero (S := S8x13x16x512) hz4,
    View.ld_unit_zero (S := S8x13) hz]

/-- The same for the squared errors' buffer holding `xo3`: it is left at `xo3 + (this block's masked squared errors)`. -/
theorem out_B_3 (c : Dev nD) (i : grid0.Coords) (a2 : Memref sig .tc .vmem S8x13x16x512 .f32) (h2 : a2.IsWhole)
    (a3 : Memref sig .tc .vmem S8x13x16x512 .f32) (h3 : a3.IsWhole) (a4 : Memref sig .tc .vmem S8x13 .f32) (h4 : a4.IsWhole)
    (a5 : Memref sig .tc .vmem S8x13 .f32) (h5 : a5.IsWhole) (hc : ¬cond0_0 i)
    (x0 x1 : Vec F S8x13x16x512 .f32) (xo2 xo3 : Vec F S8x13 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz]
  simp only [View.readAt_eq_ld, h2.read_unread, h3.read_unread, h5.read_unread, View.ld_unit_zero (S := S8x13x16x512) hz4,
    View.ld_unit_zero (S := S8x13) hz]

/-- At the first block of a row of blocks the body first stores zeros, then reads them back and adds: the counts' buffer
    is left at `0 + (this block's valid counts)`, whatever it held. -/
theorem out_A_2 (c : Dev nD) (i : grid0.Coords) (a2 : Memref sig .tc .vmem S8x13x16x512 .f32) (h2 : a2.IsWhole)
    (a3 : Memref sig .tc .vmem S8x13x16x512 .f32) (h3 : a3.IsWhole) (a4 : Memref sig .tc .vmem S8x13 .f32) (h4 : a4.IsWhole)
    (a5 : Memref sig .tc .vmem S8x13 .f32) (h5 : a5.IsWhole) (hc : cond0_0 i)
    (x0 x1 : Vec F S8x13x16x512 .f32) :
    out0_A_2 c i a2 h2 a3 h3 a4 h4 a5 h5 hc x0 x1 = k0_pay4 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S8x13) hz, View.readCov_unit_zero (S := S8x13) _ hz]
  simp only [View.readAt_eq_ld, h3.read_unread, View.ld_unit_zero (S := S8x13x16x512) hz4]

/-- And the squared errors' buffer at `0 + (this block's masked squared errors)`. -/
theorem out_A_3 (c : Dev nD) (i : grid0.Coords) (a2 : Memref sig .tc .vmem S8x13x16x512 .f32) (h2 : a2.IsWhole)
    (a3 : Memref sig .tc .vmem S8x13x16x512 .f32) (h3 : a3.IsWhole) (a4 : Memref sig .tc .vmem S8x13 .f32) (h4 : a4.IsWhole)
    (a5 : Memref sig .tc .vmem S8x13 .f32) (h5 : a5.IsWhole) (hc : cond0_0 i)
    (x0 x1 : Vec F S8x13x16x512 .f32) :
    out0_A_3 c i a2 h2 a3 h3 a4 h4 a5 h5 hc x0 x1 = k0_pay5 x0 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S8x13) hz, View.readCov_unit_zero (S := S8x13) _ hz]
  simp only [View.readAt_eq_ld, h2.read_unread, h3.read_unread, View.ld_unit_zero (S := S8x13x16x512) hz4]

end Cert.KernelIdeal.Acc

end
-- ==== Proof.Payload.lean ====
/-
  The kernel body's arithmetic at one entry, over the extended reals. Each of the two closing stores adds, to what the
  output buffer held at (b, c), a pointwise term of the block summed over its 512 columns and then its 16 rows: for the counts
  the term is 1 at a valid pixel and 0 elsewhere (the validity bit widened to a word and converted), for the errors it
  is (o − t)² at a valid pixel and 0 elsewhere.
-/
import proofs.«141401_j79731772883678_1_alg».proof.Proof.Gen.KernelIdeal.Skeleton
import proofs.«141401_j79731772883678_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Acc

open Cert.KernelIdeal Cert.KernelIdeal.Gen Cert.MaskedMse

/-- Entry (b, c, h, w) of a block: `b` of its 8 batch rows, channel `c`, `h` of its 16 image rows, column `w`. -/
abbrev blk4 (b : Fin 8) (c : Fin 13) (h : Fin 16) (w : Fin 512) : S8x13x16x512.Idx := ix4 b c h w

/-- The body's two lane sums in a row, over the columns and then over the block's rows, at (b, c): the double sum. -/
theorem sum_rows_cols (V : FVec Ideal S8x13x16x512 .f32) (b : Fin 8) (c : Fin 13) :
    multiReduction .add [2] S8x13 (multiReduction .add [3] S8x13x16 V 0x00000000#32 reduces_S8x13x16x512_S8x13x16 (.inl rfl) rfl)
        0x00000000#32 reduces_S8x13x16_S8x13 (.inl rfl) rfl (ix2 b c)
      = ∑ h : Fin 16, ∑ w : Fin 512, V (blk4 b c h w) := by
  refine (Ideal.multiReduction_add_single _ _ reduces_S8x13x16_S8x13 _ _ (ix2 b c)).trans ?_
  refine Finset.sum_congr rfl fun h _ => ?_
  have e : reduces_S8x13x16_S8x13.lift (ix2 b c) h = ix3 b c h := by
    funext a; match a with | ⟨0, _⟩ => rfl | ⟨1, _⟩ => rfl | ⟨2, _⟩ => rfl
  refine (congrArg _ e).trans ?_
  refine (Ideal.multiReduction_add_single V _ reduces_S8x13x16x512_S8x13x16 _ _ (ix3 b c h)).trans ?_
  refine Finset.sum_congr rfl fun w _ => ?_
  refine congrArg V ?_
  funext a; match a with | ⟨0, _⟩ => rfl | ⟨1, _⟩ => rfl | ⟨2, _⟩ => rfl | ⟨3, _⟩ => rfl

/-- The zeros the body stores at the first block of a row of blocks. -/
theorem pay1_apply (j : S8x13.Idx) : (k0_pay1 (F := Ideal)) j = 0 := Ideal.ofBits_zero_f32
theorem pay2_apply (j : S8x13.Idx) : (k0_pay2 (F := Ideal)) j = 0 := Ideal.ofBits_zero_f32

/-- The counts' closing store at (b, c): what the buffer held, plus the number of valid pixels among the block's
    16 × 512 in that (batch row, channel). -/
theorem pay4_apply (x1 : FVec Ideal S8x13x16x512 .f32) (acc : FVec Ideal S8x13 .f32) (b : Fin 8) (c : Fin 13) :
    k0_pay4 (F := Ideal) x1 acc (ix2 b c) = acc (ix2 b c) + ∑ h : Fin 16, ∑ w : Fin 512, cnt (x1 (blk4 b c h w)) := by
  unfold k0_pay4 k0_pay3
  refine (addf_apply _ _ _).trans ?_
  refine congrArg₂ (· + ·) ?_ ?_
  · exact congrFun (shapeCast_self _ _) _
  · refine (sum_rows_cols _ b c).trans ?_
    refine Finset.sum_congr rfl fun h _ => Finset.sum_congr rfl fun w _ => ?_
    exact sitofp_bit _

/-- The squared errors' closing store at (b, c): what the buffer held, plus the valid pixels' squared errors over the block. -/
theorem pay5_apply (x0 x1 : FVec Ideal S8x13x16x512 .f32) (acc : FVec Ideal S8x13 .f32) (b : Fin 8) (c : Fin 13) :
    k0_pay5 (F := Ideal) x0 x1 acc (ix2 b c)
      = acc (ix2 b c) + ∑ h : Fin 16, ∑ w : Fin 512, msq (x0 (blk4 b c h w)) (x1 (blk4 b c h w)) := by
  unfold k0_pay5 k0_pay3
  refine (addf_apply _ _ _).trans ?_
  refine congrArg₂ (· + ·) ?_ ?_
  · exact congrFun (shapeCast_self _ _) _
  · refine (sum_rows_cols _ b c).trans ?_
    rfl

end Cert.KernelIdeal.Acc

end
-- ==== Proof.Accum.lean ====
/-
  The accumulation across the grid. The 2 × 32 grid is walked in order, point n = 32 · (batch half) + (block of 16
  image rows). The two [8, 13] output buffers are carried from point to point along a row of 32 blocks and reset at its
  first block, so after point n they hold, at (b, c), the sums over the blocks 0 … n % 32 of that row of a pointwise
  term of the arrays: 1 at a valid pixel for the counts, the squared error at a valid pixel for the errors. Proved by
  induction on the point, never by listing the 64 points.
-/
import proofs.«141401_j79731772883678_1_alg».proof.Proof.Gen.KernelIdeal.Frame
import proofs.«141401_j79731772883678_1_alg».proof.Proof.Spec
import proofs.«141401_j79731772883678_1_alg».proof.Proof.Pieces
import proofs.«141401_j79731772883678_1_alg».proof.Proof.Payload
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.MaskedMse

variable (m : (ℓ : Loc nD τ sig) → Buf (Elt Ideal) ℓ)

/-- The two input arrays as the region finds them, and their blocks at a grid point, named at their literal types. -/
abbrev oarr (c : Dev nD) : FVec Ideal S16x13x512x512 .f32 := V m c main_arg0
abbrev tarr (c : Dev nD) : FVec Ideal S16x13x512x512 .f32 := V m c main_arg1
abbrev oblk (c : Dev nD) (t : Fin cfg0.N) : FVec Ideal S8x13x16x512 .f32 := iblk m c 0 t
abbrev tblk (c : Dev nD) (t : Fin cfg0.N) : FVec Ideal S8x13x16x512 .f32 := iblk m c 1 t

/-- The pointwise terms over those arrays: 1 at a valid pixel; the squared error at a valid pixel. -/
abbrev cntAt (c : Dev nD) : Arr.Idx → EReal := fun i => cnt (tarr m c i)
abbrev msqAt (c : Dev nD) : Arr.Idx → EReal := fun i => msq (oarr m c i) (tarr m c i)

/-- Point `t` = 32 · (batch half) + (block of rows): both inputs' block index there is (t / 32, 0, t % 32, 0). -/
theorem idx_in : ∀ t : Fin cfg0.N,
    (win0_0.index t (0 : Fin 4) = t.val / 32 ∧ win0_0.index t (1 : Fin 4) = 0 ∧ win0_0.index t (2 : Fin 4) = t.val % 32 ∧ win0_0.index t (3 : Fin 4) = 0)
    ∧ (win0_1.index t (0 : Fin 4) = t.val / 32 ∧ win0_1.index t (1 : Fin 4) = 0 ∧ win0_1.index t (2 : Fin 4) = t.val % 32 ∧ win0_1.index t (3 : Fin 4) = 0) :=
  (by decide +kernel : ∀ t : Fin grid0.N,
    (win0_0.index t (0 : Fin 4) = t.val / 32 ∧ win0_0.index t (1 : Fin 4) = 0 ∧ win0_0.index t (2 : Fin 4) = t.val % 32 ∧ win0_0.index t (3 : Fin 4) = 0)
    ∧ (win0_1.index t (0 : Fin 4) = t.val / 32 ∧ win0_1.index t (1 : Fin 4) = 0 ∧ win0_1.index t (2 : Fin 4) = t.val % 32 ∧ win0_1.index t (3 : Fin 4) = 0))

/-- Entry (b, c, h, w) of the outputs' block at point `t` is the array's entry at batch row 8 · (t / 32) + b and image row
    16 · (t % 32) + h. -/
theorem oblk_apply (c : Dev nD) (t : Fin cfg0.N) (b : Fin 8) (cc : Fin 13) (h : Fin 16) (w : Fin 512) :
    oblk m c t (blk4 b cc h w) = oarr m c (at4 (batchOf (t.val / 32) b) cc (rowOf (t.val % 32) h) w) := by
  have hN : t.val < 64 := lt_of_lt_of_eq t.isLt (show cfg0.N = 64 from N_0)
  obtain ⟨⟨i0, i1, i2, i3⟩, -⟩ := idx_in t
  show iblk m c 0 t (blk4 b cc h w) = _
  unfold iblk
  rw [View.read_apply]
  show V m c main_arg0 _ = V m c main_arg0 _
  refine congrArg (V m c main_arg0) (funext fun a => Fin.ext ?_)
  match a with
  | ⟨0, _⟩ => show win0_0.index t 0 * 8 + 1 * b.val = (8 * (t.val / 32) + b.val) % 16; rw [i0]; omega
  | ⟨1, _⟩ => show win0_0.index t 1 * 13 + 1 * cc.val = cc.val; rw [i1]; omega
  | ⟨2, _⟩ => show win0_0.index t 2 * 16 + 1 * h.val = (16 * (t.val % 32) + h.val) % 512; rw [i2]; omega
  | ⟨3, _⟩ => show win0_0.index t 3 * 512 + 1 * w.val = w.val; rw [i3]; omega

/-- The same for the targets' block. -/
theorem tblk_apply (c : Dev nD) (t : Fin cfg0.N) (b : Fin 8) (cc : Fin 13) (h : Fin 16) (w : Fin 512) :
    tblk m c t (blk4 b cc h w) = tarr m c (at4 (batchOf (t.val / 32) b) cc (rowOf (t.val % 32) h) w) := by
  have hN : t.val < 64 := lt_of_lt_of_eq t.isLt (show cfg0.N = 64 from N_0)
  obtain ⟨-, ⟨i0, i1, i2, i3⟩⟩ := idx_in t
  show iblk m c 1 t (blk4 b cc h w) = _
  unfold iblk
  rw [View.read_apply]
  show V m c main_arg1 _ = V m c main_arg1 _
  refine congrArg (V m c main_arg1) (funext fun a => Fin.ext ?_)
  match a with
  | ⟨0, _⟩ => show win0_1.index t 0 * 8 + 1 * b.val = (8 * (t.val / 32) + b.val) % 16; rw [i0]; omega
  | ⟨1, _⟩ => show win0_1.index t 1 * 13 + 1 * cc.val = cc.val; rw [i1]; omega
  | ⟨2, _⟩ => show win0_1.index t 2 * 16 + 1 * h.val = (16 * (t.val % 32) + h.val) % 512; rw [i2]; omega
  | ⟨3, _⟩ => show win0_1.index t 3 * 512 + 1 * w.val = w.val; rw [i3]; omega

/-- So the block's valid count at (b, c) is the point's block sum of the counting term over the array, -/
theorem blk_cnt (c : Dev nD) (t : Fin cfg0.N) (b : Fin 8) (cc : Fin 13) :
    ∑ h : Fin 16, ∑ w : Fin 512, cnt (tblk m c t (blk4 b cc h w)) = blkSum (cntAt m c) t.val b cc := by
  unfold blkSum
  exact Finset.sum_congr rfl fun h _ => Finset.sum_congr rfl fun w _ => congrArg cnt (tblk_apply m c t b cc h w)

/-- and its masked squared error the block sum of the error term. -/
theorem blk_msq (c : Dev nD) (t : Fin cfg0.N) (b : Fin 8) (cc : Fin 13) :
    ∑ h : Fin 16, ∑ w : Fin 512, msq (oblk m c t (blk4 b cc h w)) (tblk m c t (blk4 b cc h w)) = blkSum (msqAt m c) t.val b cc := by
  unfold blkSum
  exact Finset.sum_congr rfl fun h _ => Finset.sum_congr rfl fun w _ =>
    congrArg₂ msq (oblk_apply m c t b cc h w) (tblk_apply m c t b cc h w)

/-- At the first block of a row of blocks the two output buffers are left at zero plus that block's sums. -/
theorem step_first (c : Dev nD) (t : Fin cfg0.N) (h0 : t.val % 32 = 0) (b : Fin 8) (cc : Fin 13) :
    (outsAt0 m c t.val t.isLt).1 (ix2 b cc) = accOf (cntAt m c) t.val b cc
    ∧ (outsAt0 m c t.val t.isLt).2 (ix2 b cc) = accOf (msqAt m c) t.val b cc := by
  rw [outsAt0_A m c t h0]
  dsimp only
  constructor
  · refine (congrFun (out_A_2 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix2 b cc)).trans ?_
    refine (pay4_apply (tblk m c t) (k0_pay1 (F := Ideal)) b cc).trans ?_
    rw [pay1_apply, blk_cnt, accOf_first _ _ h0]
  · refine (congrFun (out_A_3 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix2 b cc)).trans ?_
    refine (pay5_apply (oblk m c t) (tblk m c t) (k0_pay2 (F := Ideal)) b cc).trans ?_
    rw [pay2_apply, blk_msq, accOf_first _ _ h0]

/-- At a later block they are left at what the block before left plus this block's sums. -/
theorem step_next (c : Dev nD) (n : ℕ) (hn : n + 1 < cfg0.N) (h0 : ¬(n + 1) % 32 = 0)
    (ih : ∀ (b : Fin 8) (cc : Fin 13), (outsAt0 m c n (Nat.lt_of_succ_lt hn)).1 (ix2 b cc) = accOf (cntAt m c) n b cc
      ∧ (outsAt0 m c n (Nat.lt_of_succ_lt hn)).2 (ix2 b cc) = accOf (msqAt m c) n b cc)
    (b : Fin 8) (cc : Fin 13) :
    (outsAt0 m c (n + 1) hn).1 (ix2 b cc) = accOf (cntAt m c) (n + 1) b cc
    ∧ (outsAt0 m c (n + 1) hn).2 (ix2 b cc) = accOf (msqAt m c) (n + 1) b cc := by
  have hB : ¬(⟨n + 1, hn⟩ : Fin cfg0.N).val % 32 = 0 := h0
  rw [outsAt0_B m c ⟨n + 1, hn⟩ hB]
  dsimp only
  constructor
  · refine (congrFun (out_B_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h))
      (iblk m c 0 ⟨n + 1, hn⟩) (iblk m c 1 ⟨n + 1, hn⟩) (outsAt0 m c n (Nat.lt_of_succ_lt hn)).1 (outsAt0 m c n (Nat.lt_of_succ_lt hn)).2) (ix2 b cc)).trans ?_
    refine (pay4_apply (tblk m c ⟨n + 1, hn⟩) (outsAt0 m c n (Nat.lt_of_succ_lt hn)).1 b cc).trans ?_
    rw [(ih b cc).1, blk_cnt, accOf_next _ _ h0]
  · refine (congrFun (out_B_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h))
      (iblk m c 0 ⟨n + 1, hn⟩) (iblk m c 1 ⟨n + 1, hn⟩) (outsAt0 m c n (Nat.lt_of_succ_lt hn)).1 (outsAt0 m c n (Nat.lt_of_succ_lt hn)).2) (ix2 b cc)).trans ?_
    refine (pay5_apply (oblk m c ⟨n + 1, hn⟩) (tblk m c ⟨n + 1, hn⟩) (outsAt0 m c n (Nat.lt_of_succ_lt hn)).2 b cc).trans ?_
    rw [(ih b cc).2, blk_msq, accOf_next _ _ h0]

/-- THE INVARIANT, by induction on the grid point: after point `n` the two output buffers hold, at (b, c), the running
    sums of the counting term and of the error term over the blocks of `n`'s row up to `n`'s own. -/
theorem outsAt_eq (c : Dev nD) : ∀ (n : ℕ) (hn : n < cfg0.N) (b : Fin 8) (cc : Fin 13),
    (outsAt0 m c n hn).1 (ix2 b cc) = accOf (cntAt m c) n b cc ∧ (outsAt0 m c n hn).2 (ix2 b cc) = accOf (msqAt m c) n b cc
  | 0, hn, b, cc => step_first m c ⟨0, hn⟩ rfl b cc
  | n + 1, hn, b, cc => by
    by_cases h0 : (n + 1) % 32 = 0
    · exact step_first m c ⟨n + 1, hn⟩ h0 b cc
    · exact step_next m c n hn h0 (fun b cc => outsAt_eq c n (Nat.lt_of_succ_lt hn) b cc) b cc

end Cert.KernelIdeal.Acc

end
-- ==== Proof.Final.lean ====
/-
  From the grid to the arrays, and on to the result. The two [8, 13] output buffers are written back only after the
  last block of a row of 32 blocks (points 31 and 63), by which time they hold the whole planes' sums; the two points'
  blocks are the two batch halves, which fill the [16, 13] result arrays. So after the region the arrays hold the planes'
  valid counts and squared-error sums, and the host lines that follow apply the shared scalar function to them.
-/
import proofs.«141401_j79731772883678_1_alg».proof.Proof.Gen.KernelIdeal.Frame
import proofs.«141401_j79731772883678_1_alg».proof.Proof.Spec
import proofs.«141401_j79731772883678_1_alg».proof.Proof.Accum
import Idealize.ShloMosaic.Lib.Pipeline.Value
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.MaskedMse

variable (m : (ℓ : Loc nD τ sig) → Buf (Elt Ideal) ℓ) (ρ : Dev nD → PrngReg)

/-- What the two result arrays end holding: per (batch, channel) plane the number of valid pixels and the valid pixels'
    squared errors, of the input arrays as the region finds them. -/
abbrev Cfin (c : Dev nD) : Buf (Elt Ideal) ((c : Thread nD τ).loc main_v0_0) := rowSums (cntAt m c)
abbrev Efin (c : Dev nD) : Buf (Elt Ideal) ((c : Thread nD τ).loc main_v0_1) := rowSums (msqAt m c)

/-- Both outputs' block index at point `t` is (t / 32, 0): the batch half, whatever the block of rows. -/
theorem idx_out : ∀ t : Fin cfg0.N,
    (win0_2.index t (0 : Fin 2) = t.val / 32 ∧ win0_2.index t (1 : Fin 2) = 0)
    ∧ (win0_3.index t (0 : Fin 2) = t.val / 32 ∧ win0_3.index t (1 : Fin 2) = 0) :=
  (by decide +kernel : ∀ t : Fin grid0.N,
    (win0_2.index t (0 : Fin 2) = t.val / 32 ∧ win0_2.index t (1 : Fin 2) = 0)
    ∧ (win0_3.index t (0 : Fin 2) = t.val / 32 ∧ win0_3.index t (1 : Fin 2) = 0))

/-- The counts are written back after the last block of a row of blocks, and what is written is the batch half's block of
    the planes' counts: the running sum has by then taken in all 32 blocks. -/
theorem flushed2_eq (c : Dev nD) (t : Fin cfg0.N) (hf : (cfg0.win 2).flush t = true) :
    (dats m 0 c).flushed 2 t = ((cfg0.win 2).blk t).view.read (Elt Ideal) (Cfin m c) := by
  have hN : t.val < 64 := lt_of_lt_of_eq t.isLt (show cfg0.N = 64 from N_0)
  have h31 : t.val % 32 = 31 := (flush0_2 t).mp hf
  obtain ⟨⟨i0, i1⟩, -⟩ := idx_out t
  show (cfg0.win 2).cut (grid0.coords t) ((dats m 0 c).after 2 t) = _
  rw [after0_2]
  funext y
  have hy0 : (y 0).val < 8 := (y 0).isLt
  have hy1 : (y 1).val < 13 := (y 1).isLt
  rw [View.read_apply]
  show (outsAt0 m c t.val t.isLt).1 ((cfg0.win 2).xinj (grid0.coords t) y) = Cfin m c (((cfg0.win 2).blk t).view.emb y)
  have ex : (cfg0.win 2).xinj (grid0.coords t) y = ix2 (⟨(y 0).val, hy0⟩ : Fin 8) (⟨(y 1).val, hy1⟩ : Fin 13) := by
    funext a; match a with | ⟨0, _⟩ => rfl | ⟨1, _⟩ => rfl
  have ee : ((cfg0.win 2).blk t).view.emb y = ix2 (batchOf (t.val / 32) ⟨(y 0).val, hy0⟩) (⟨(y 1).val, hy1⟩ : Fin 13) := by
    funext a; apply Fin.ext
    match a with
    | ⟨0, _⟩ => show win0_2.index t (0 : Fin 2) * 8 + 1 * (y 0).val = (8 * (t.val / 32) + (y 0).val) % 16; rw [i0]; omega
    | ⟨1, _⟩ => show win0_2.index t (1 : Fin 2) * 13 + 1 * (y 1).val = (y 1).val; rw [i1]; omega
  rw [ex, ee, (outsAt_eq m c t.val t.isLt _ _).1]
  have ht : t.val = 32 * (t.val / 32) + 31 := by omega
  have hl := accOf_last (cntAt m c) (t.val / 32) ⟨(y 0).val, hy0⟩ ⟨(y 1).val, hy1⟩
  rw [← ht] at hl
  exact hl

/-- The same for the squared errors. -/
theorem flushed3_eq (c : Dev nD) (t : Fin cfg0.N) (hf : (cfg0.win 3).flush t = true) :
    (dats m 0 c).flushed 3 t = ((cfg0.win 3).blk t).view.read (Elt Ideal) (Efin m c) := by
  have hN : t.val < 64 := lt_of_lt_of_eq t.isLt (show cfg0.N = 64 from N_0)
  have h31 : t.val % 32 = 31 := (flush0_3 t).mp hf
  obtain ⟨-, ⟨i0, i1⟩⟩ := idx_out t
  show (cfg0.win 3).cut (grid0.coords t) ((dats m 0 c).after 3 t) = _
  rw [after0_3]
  funext y
  have hy0 : (y 0).val < 8 := (y 0).isLt
  have hy1 : (y 1).val < 13 := (y 1).isLt
  rw [View.read_apply]
  show (outsAt0 m c t.val t.isLt).2 ((cfg0.win 3).xinj (grid0.coords t) y) = Efin m c (((cfg0.win 3).blk t).view.emb y)
  have ex : (cfg0.win 3).xinj (grid0.coords t) y = ix2 (⟨(y 0).val, hy0⟩ : Fin 8) (⟨(y 1).val, hy1⟩ : Fin 13) := by
    funext a; match a with | ⟨0, _⟩ => rfl | ⟨1, _⟩ => rfl
  have ee : ((cfg0.win 3).blk t).view.emb y = ix2 (batchOf (t.val / 32) ⟨(y 0).val, hy0⟩) (⟨(y 1).val, hy1⟩ : Fin 13) := by
    funext a; apply Fin.ext
    match a with
    | ⟨0, _⟩ => show win0_3.index t (0 : Fin 2) * 8 + 1 * (y 0).val = (8 * (t.val / 32) + (y 0).val) % 16; rw [i0]; omega
    | ⟨1, _⟩ => show win0_3.index t (1 : Fin 2) * 13 + 1 * (y 1).val = (y 1).val; rw [i1]; omega
  rw [ex, ee, (outsAt_eq m c t.val t.isLt _ _).2]
  have ht : t.val = 32 * (t.val / 32) + 31 := by omega
  have hl := accOf_last (msqAt m c) (t.val / 32) ⟨(y 0).val, hy0⟩ ⟨(y 1).val, hy1⟩
  rw [← ht] at hl
  exact hl

/-- An index of a [16, 13] result array is in point `t`'s block iff each coordinate is in the block's range on its axis. -/
theorem mem_blk2 (t : Fin cfg0.N) (i : S16x13.Idx) :
    i ∈ ((cfg0.win 2).blk t).view.set ↔ ∀ a : Fin 2, win0_2.index t a * S8x13.size a ≤ (i a).val ∧ (i a).val < win0_2.index t a * S8x13.size a + S8x13.size a := by
  show i ∈ ((View.whole main_v0_0).slice (win0_2.rect t)).set ↔ _
  rw [View.set_slice_whole, Rect.mem_set_unit]
  exact Iff.rfl
theorem mem_blk3 (t : Fin cfg0.N) (i : S16x13.Idx) :
    i ∈ ((cfg0.win 3).blk t).view.set ↔ ∀ a : Fin 2, win0_3.index t a * S8x13.size a ≤ (i a).val ∧ (i a).val < win0_3.index t a * S8x13.size a + S8x13.size a := by
  show i ∈ ((View.whole main_v0_1).slice (win0_3.rect t)).set ↔ _
  rw [View.set_slice_whole, Rect.mem_set_unit]
  exact Iff.rfl

/-- Batch row `B` is written back by the last point of its half's row of blocks, point 32 · (B / 8) + 31. -/
theorem cover2 (i : S16x13.Idx) : ∃ t : Fin cfg0.N, (cfg0.win 2).flush t = true ∧ i ∈ ((cfg0.win 2).blk t).view.set := by
  have hi0 : (i 0).val < 16 := (i 0).isLt
  have hi1 : (i 1).val < 13 := (i 1).isLt
  have hN : cfg0.N = 64 := N_0
  have hlt : 32 * ((i 0).val / 8) + 31 < cfg0.N := by rw [hN]; omega
  obtain ⟨⟨i0, i1⟩, -⟩ := idx_out ⟨32 * ((i 0).val / 8) + 31, hlt⟩
  dsimp only at i0 i1
  refine ⟨⟨32 * ((i 0).val / 8) + 31, hlt⟩, (flush0_2 _).mpr (by show (32 * ((i 0).val / 8) + 31) % 32 = 31; omega), ?_⟩
  rw [mem_blk2]
  intro a
  match a with
  | ⟨0, _⟩ =>
    show win0_2.index ⟨32 * ((i 0).val / 8) + 31, hlt⟩ (0 : Fin 2) * 8 ≤ (i 0).val
      ∧ (i 0).val < win0_2.index ⟨32 * ((i 0).val / 8) + 31, hlt⟩ (0 : Fin 2) * 8 + 8
    rw [i0]; omega
  | ⟨1, _⟩ =>
    show win0_2.index ⟨32 * ((i 0).val / 8) + 31, hlt⟩ (1 : Fin 2) * 13 ≤ (i 1).val
      ∧ (i 1).val < win0_2.index ⟨32 * ((i 0).val / 8) + 31, hlt⟩ (1 : Fin 2) * 13 + 13
    rw [i1]; omega
theorem cover3 (i : S16x13.Idx) : ∃ t : Fin cfg0.N, (cfg0.win 3).flush t = true ∧ i ∈ ((cfg0.win 3).blk t).view.set := by
  have hi0 : (i 0).val < 16 := (i 0).isLt
  have hi1 : (i 1).val < 13 := (i 1).isLt
  have hN : cfg0.N = 64 := N_0
  have hlt : 32 * ((i 0).val / 8) + 31 < cfg0.N := by rw [hN]; omega
  obtain ⟨-, ⟨i0, i1⟩⟩ := idx_out ⟨32 * ((i 0).val / 8) + 31, hlt⟩
  dsimp only at i0 i1
  refine ⟨⟨32 * ((i 0).val / 8) + 31, hlt⟩, (flush0_3 _).mpr (by show (32 * ((i 0).val / 8) + 31) % 32 = 31; omega), ?_⟩
  rw [mem_blk3]
  intro a
  match a with
  | ⟨0, _⟩ =>
    show win0_3.index ⟨32 * ((i 0).val / 8) + 31, hlt⟩ (0 : Fin 2) * 8 ≤ (i 0).val
      ∧ (i 0).val < win0_3.index ⟨32 * ((i 0).val / 8) + 31, hlt⟩ (0 : Fin 2) * 8 + 8
    rw [i0]; omega
  | ⟨1, _⟩ =>
    show win0_3.index ⟨32 * ((i 0).val / 8) + 31, hlt⟩ (1 : Fin 2) * 13 ≤ (i 1).val
      ∧ (i 1).val < win0_3.index ⟨32 * ((i 0).val / 8) + 31, hlt⟩ (1 : Fin 2) * 13 + 13
    rw [i1]; omega

/-- THE TWO RESULT ARRAYS after the region: the planes' counts and squared-error sums. -/
theorem final2 (c : Dev nD) : (dats m 0 c).arrAt 2 cfg0.N = Cfin m c :=
  (dats m 0 c).arrAt_eq_of_cover 2 (Cfin m c) (flushed2_eq m c) cover2
theorem final3 (c : Dev nD) : (dats m 0 c).arrAt 3 cfg0.N = Efin m c :=
  (dats m 0 c).arrAt_eq_of_cover 3 (Efin m c) (flushed3_eq m c) cover3

set_option maxRecDepth 8192 in
set_option maxHeartbeats 2000000 in
/-- The scalar the host lines after the region leave in the result buffer: the shared function of the two arrays. -/
theorem tail_eq (c : Dev nD) :
    Pipeline.afterTail₀ cfgs (dats m) 0 (V0 m) [hostOps1, hostOps1_1, hostOps1_2, hostOps1_3, hostOps1_4, hostOps1_5] c main_v18
      = tail (F := Ideal) bcast_S_S16x13 reducesTo_S16x13_S_d0_1 h_S_ (Cfin m c) (Efin m c) := by
  unfold Pipeline.afterTail₀
  show StableHlo.after (List.flatten [hostOps1, hostOps1_1, hostOps1_2, hostOps1_3, hostOps1_4, hostOps1_5]) _ (Proc.devRef .tc main_v18) = _
  simp only [hostOps1, hostOps1_1, hostOps1_2, hostOps1_3, hostOps1_4, hostOps1_5, List.flatten_cons, List.flatten_nil, List.append_nil,
    List.cons_append, List.nil_append]
  after_results_simp
  simp only [StableHlo.TRef.ofBuf, StableHlo.TRef.toBuf, cast_eq]
  have e2 : Pipeline.withArrays (cfgs 0).spec c (V0 m c) (fun w => (dats m 0 c).arrAt w (cfgs 0).N) (Proc.devRef .tc main_v0_0) = Cfin m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = Efin m c :=
    (Pipeline.withArrays_arr spec0 launch0.win.arr_inj c _ _ 3).trans (final3 m c)
  rw [e2, e3]
  rfl

/-- THE KERNEL'S RUN, READ: every weakly fair execution terminates with the result buffer at the shared function of the
    planes' counts and squared-error sums of the arguments, and the arguments unchanged. -/
theorem run : θ_run defs (onTc (τ := τ) (main (F := Ideal))) ⟨m, fun _ => 0, ρ⟩ fun r => ∀ c : Dev nD,
      r.2.mem ((c : Thread nD τ).loc main_v18) = tail (F := Ideal) bcast_S_S16x13 reducesTo_S16x13_S_d0_1 h_S_ (Cfin m c) (Efin m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v18 (Pipeline.mem_restRefs_of main_v18 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.RefSide.lean ====
/-
  The reference, read. Its run ends with the result at one composed term of the two inputs; that term is the shared
  scalar function of two [16, 13] arrays: the planes' valid counts, formed in 32-bit integers and converted, and the planes'
  sums of the valid pixels' squared errors, one float sum over both image axes. Over the extended reals both arrays
  are plain double sums over the image's rows and columns of a pointwise term.
-/
import proofs.«141401_j79731772883678_1_alg».proof.Proof.Gen.ReferenceIdeal
import proofs.«141401_j79731772883678_1_alg».proof.Proof.RefRun
import proofs.«141401_j79731772883678_1_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.MaskedMse

section AnyF
variable {F : FTy → Type} [FloatOps F]

/-- The reference's per-plane counts as it computes them: the validity bits widened to 32-bit words, summed as words over
    both image axes, the word converted signed. -/
def refC (x1 : FVec F S16x13x512x512 .f32) : FVec F S16x13 .f32 :=
  sitofp (F := F) .f32 (Host.reduce IntOp.addi
    (extui 32 (cmpf (F := F) .ogt x1 (broadcastInDim S16x13x512x512 ![] bcast_S_S16x13x512x512 (constant S_ .f32 0x00000000#32))) natLt_1_32)
    (constantI S_ 32 0#32) reducesTo_S16x13x512x512_S16x13_d2_3 h_S_)

/-- The reference's per-plane sums of the valid pixels' squared errors: one float sum over both image axes. -/
def refE (x0 x1 : FVec F S16x13x512x512 .f32) : FVec F S16x13 .f32 :=
  Host.reduceAdd
    (select (cmpf (F := F) .ogt x1 (broadcastInDim S16x13x512x512 ![] bcast_S_S16x13x512x512 (constant S_ .f32 0x00000000#32)))
      (mulf (subf x0 x1) (subf x0 x1))
      (broadcastInDim S16x13x512x512 ![] bcast_S_S16x13x512x512 (constant S_ .f32 0x00000000#32)))
    (constant S_ .f32 0x00000000#32) reducesTo_S16x13x512x512_S16x13_d2_3 h_S_

/-- The reference's run, its result stated as the shared function of those two arrays: its operations after the two
    sums are that function's, one for one. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = tail (F := F) bcast_S_S16x13 reducesTo_S16x13_S_d0_1 h_S_ (refC (m ((c.tc : Thread nD τ).loc main_arg1)))
            (refE (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceIdeal.RunP.run (F := F) m ρ)

end AnyF

/-- Over the extended reals the reference's counts are the planes' sums of the counting term: the word sum cannot wrap. -/
theorem refC_eq (x1 : FVec Ideal S16x13x512x512 .f32) : refC (F := Ideal) x1 = rowSums (fun i => cnt (x1 i)) := by
  funext j
  exact count_rows (cmpf (F := Ideal) .ogt x1 (broadcastInDim S16x13x512x512 ![] bcast_S_S16x13x512x512 (constant S_ .f32 0x00000000#32)))
    natLt_1_32 reducesTo_S16x13x512x512_S16x13_d2_3 h_S_ j

/-- And its error sums the planes' sums of the error term: the initial value is zero. -/
theorem refE_eq (x0 x1 : FVec Ideal S16x13x512x512 .f32) : refE (F := Ideal) x0 x1 = rowSums (fun i => msq (x0 i) (x1 i)) := by
  funext j
  refine (hostReduceAdd_rows reducesTo_S16x13x512x512_S16x13_d2_3 _ _ j).trans ?_
  show Ideal.ofBits .f32 0x00000000#32 + _ = _
  rw [Ideal.ofBits_zero_f32, zero_add]
  rfl

end Cert.ReferenceIdeal.RefValue

end
-- ==== Proof.lean ====
/-
  The masked, weighted mean squared error of two f32[16, 13, 512, 512] inputs (outputs `o`, targets `t`), computed two
  ways, is one number over the extended reals.

  Per (batch, channel) plane both programs form the number C of valid pixels (target above zero) and the sum E over the
  valid pixels of (o − t)², and then the same scalar function of the two [16, 13] arrays: the planes' errors
  E / max (C, 1), weighted by sqrt (C / 262144), summed and divided by the weights' sum (Spec.lean `tail`).

  The kernel walks each plane in 32 blocks of 16 image rows, summing each block over its columns and then its rows and
  adding block after block into an output buffer that is reset at the first block and written back after the last; it
  counts in floats. The reference sums a plane's 512 × 512 terms in one reduction and counts in 32-bit integers, which
  it then converts. Over the extended reals addition is commutative and associative, so the grouping does not matter,
  and a plane's 2¹⁸ pixels cannot wrap a 32-bit count; no finiteness of the inputs is used.

  The modules: Spec (the mathematics, no program), Pieces and Payload (one run of the kernel body, as values), Accum
  (the running sums across the grid, by induction on the grid point), Final (the result arrays and the kernel's run),
  RefSide (the reference's run and its two arrays), RefRun (the reference's operations run in order).
-/
import proofs.«141401_j79731772883678_1_alg».proof.Defs
import proofs.«141401_j79731772883678_1_alg».proof.Proof.Gen.Kernel
import proofs.«141401_j79731772883678_1_alg».proof.Proof.Gen.Kernel.Frame
import proofs.«141401_j79731772883678_1_alg».proof.Proof.Gen.KernelIdeal
import proofs.«141401_j79731772883678_1_alg».proof.Proof.Gen.KernelIdeal.Frame
import proofs.«141401_j79731772883678_1_alg».proof.Proof.Gen.ReferenceIdeal
import proofs.«141401_j79731772883678_1_alg».proof.Proof.Gen.Pre_finite_inputs
import proofs.«141401_j79731772883678_1_alg».proof.Proof.Final
import proofs.«141401_j79731772883678_1_alg».proof.Proof.RefSide
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealized kernel is the kernel's own text read over the extended reals: nothing was rewritten. -/
theorem preserves : Cert.preserves_Kernel_KernelIdeal := trivial

/-- Both programs end at the shared scalar function of the planes' valid counts and squared-error sums of the same
    arguments: the kernel by its blockwise accumulation, the reference by its two whole-plane sums. -/
theorem algebraic : Cert.algebraic_KernelIdeal_ReferenceIdeal := by
  intro m ρ m' ρ' _ hagree
  refine ⟨fun c => Cert.MaskedMse.tail (F := Ideal) Cert.KernelIdeal.Facts₀.bcast_S_S16x13 Cert.KernelIdeal.Facts₀.reducesTo_S16x13_S_d0_1
    Cert.KernelIdeal.Facts₀.h_S_ (Cert.KernelIdeal.Acc.Cfin m c) (Cert.KernelIdeal.Acc.Efin m c), Cert.KernelIdeal.Acc.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2, Cert.ReferenceIdeal.RefValue.refC_eq, Cert.ReferenceIdeal.RefValue.refE_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
